-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S1048576 : Shape := ⟨1, ![1048576]⟩
abbrev S65536x64 : Shape := ⟨2, ![65536, 64]⟩
abbrev S128x64 : Shape := ⟨2, ![128, 64]⟩
abbrev S64 : Shape := ⟨1, ![64]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S65536x64 : S_.BroadcastsInDim S65536x64 (![] : Fin 0 → Fin S65536x64.rank)
  reducesTo_S65536x64_S_d0_1 : S65536x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S65536x128 .f32) (main_arg1 : IVec S1048576 32) (main_arg2 : IVec S1048576 32) (main_arg3 : FVec F S1048576 .f32) (main_arg4 : FVec F S65536x64 .f32) (main_arg5 : FVec F S128x64 .f32) (main_arg6 : FVec F S64 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1048576 .f32 := Host.absf main_arg3
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S65536x64 .f32 := Host.absf main_arg4
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S65536x128 : Shape := ⟨2, ![65536, 128]⟩
abbrev S1048576 : Shape := ⟨1, ![1048576]⟩
abbrev S65536x64 : Shape := ⟨2, ![65536, 64]⟩
abbrev S128x64 : Shape := ⟨2, ![128, 64]⟩
abbrev S64 : Shape := ⟨1, ![64]⟩
abbrev S8192x128 : Shape := ⟨2, ![8192, 128]⟩
abbrev S8192x64 : Shape := ⟨2, ![8192, 64]⟩
abbrev S_ : Shape := ⟨0, ![]⟩
abbrev S1048576x1 : Shape := ⟨2, ![1048576, 1]⟩
abbrev S1048576x64 : Shape := ⟨2, ![1048576, 64]⟩
abbrev S1x64 : Shape := ⟨2, ![1, 64]⟩

abbrev nBuf : Space → Nat
  | .hbm => 26
  | .vmem => 12
  | .smem => 0
  | _ => 0

abbrev bufTy : (tb : Table) → Fin (tcTables nBuf tb) → BufTy
  | .hbm, ⟨0, _⟩ => ⟨S65536x128, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S65536x64, .f32⟩
  | .hbm, ⟨5, _⟩ => ⟨S128x64, .f32⟩
  | .hbm, ⟨6, _⟩ => ⟨S64, .f32⟩
  | .hbm, ⟨7, _⟩ => ⟨S65536x64, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x64, .f32⟩
  | .hbm, ⟨17, _⟩ => ⟨S1048576x1, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S65536x64, .f32⟩
  | .hbm, ⟨22, _⟩ => ⟨S1048576x1, .i32⟩
  | .hbm, ⟨23, _⟩ => ⟨S65536x64, .f32⟩
  | .hbm, ⟨24, _⟩ => ⟨S1x64, .f32⟩
  | .hbm, ⟨25, _⟩ => ⟨S65536x64, .f32⟩
  | .local _ .vmem, ⟨0, _⟩ => ⟨S8192x128, .f32⟩
  | .local _ .vmem, ⟨1, _⟩ => ⟨S8192x128, .f32⟩
  | .local _ .vmem, ⟨2, _⟩ => ⟨S128x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | .local _ .vmem, ⟨8, _⟩ => ⟨S8192x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  shapeCasts_S64_S1x64 : S64.ShapeCasts S1x64
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  dot_S8192x128_S128x64_S8192x64_1_0_0_1_n_n_wf : DotDims.WF S8192x128 S128x64 S8192x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S65536x64.size a
  hwx0_2 : ∀ i : grid0.Coords, EltTy.bits .f32 = 32 ∨ (Rect.block (s := S65536x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S65536x64.size a
  hwx1_0 : ∀ i : grid1.Coords, EltTy.bits .f32 = 32 ∨ (Rect.block (s := S65536x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S65536x64.size a
  hwx1_1 : ∀ i : grid1.Coords, EltTy.bits .f32 = 32 ∨ (Rect.block (s := S65536x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S65536x64.size a
  hwx1_3 : ∀ i : grid1.Coords, EltTy.bits .f32 = 32 ∨ (Rect.block (s := S65536x64) S8192x64.size (cc1_transform_3 i) (hinb1_3 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg4) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x128 : Shape := ⟨2, ![65536, 128]⟩
abbrev S1048576 : Shape := ⟨1, ![1048576]⟩
abbrev S65536x64 : Shape := ⟨2, ![65536, 64]⟩
abbrev S128x64 : Shape := ⟨2, ![128, 64]⟩
abbrev S64 : Shape := ⟨1, ![64]⟩
abbrev S1048576x1 : Shape := ⟨2, ![1048576, 1]⟩
abbrev S_ : Shape := ⟨0, ![]⟩
abbrev S1048576x64 : Shape := ⟨2, ![1048576, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S65536x64, .f32⟩
  | .hbm, ⟨5, _⟩ => ⟨S128x64, .f32⟩
  | .hbm, ⟨6, _⟩ => ⟨S64, .f32⟩
  | .hbm, ⟨7, _⟩ => ⟨S65536x64, .f32⟩
  | .hbm, ⟨8, _⟩ => ⟨S1048576x1, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S1048576x1, .i32⟩
  | .hbm, ⟨17, _⟩ => ⟨S1048576x64, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S65536x64, .f32⟩
  | .hbm, ⟨22, _⟩ => ⟨S1048576x1, .i32⟩
  | .hbm, ⟨23, _⟩ => ⟨S65536x64, .f32⟩
  | .hbm, ⟨24, _⟩ => ⟨S65536x64, .f32⟩
  | .hbm, ⟨25, _⟩ => ⟨S1x64, .f32⟩
  | .hbm, ⟨26, _⟩ => ⟨S65536x64, .f32⟩
  | .hbm, ⟨27, _⟩ => ⟨S65536x64, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  dot_S65536x128_S128x64_S65536x64_1_0_0_1_n_n_wf : DotDims.WF S65536x128 S128x64 S65536x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Spec.lean ====
/-
  A graph layer with a gate, over the extended reals.

  The layer takes node features X [65536, 128], a weight W [128, 64], a list of 1048576 edges (row, col, value), a gate
  P [65536, 64] and a bias b [64]. Its dense half is the projection

      support(r, c) = Σ_k X(r, k) · W(k, c)                                          (`support`)

  and its last step is, entry by entry,

      result(r, c) = P(r, c) · O(r, c) + b(c)                                        (`gate`)

  where O is the sparse propagation of `support` along the edges (each edge adds value · support[col] to row `row` of O).
  The propagation is the same host computation in both programs and is never opened: only the two dense ends are read
  at an entry here. The general product of the host is `support` (`dotGeneral_eq_support`): a product of an
  [R, K] array with a [K, C] array contracting axis 1 with axis 0 is the sum over k at every entry. A bias row laid out
  over the rows of an array — as a [1, 64] array stretched over the rows, or laid out on axis 1 and then on both axes —
  reads the row's entry at the column (`bias_row_apply`, `bias_cast_apply`, `bias_inDim_apply`).
-/
import Idealize.ShloMosaic.PureOps.Ideal.Laws
import Idealize.ShloMosaic.Lib.ValueIdx
import Idealize.ShloMosaic.Lib.ValueLayout
import Idealize.ShloMosaic.Lib.Pipeline.Value
import proofs.«144389_j16578573762726_1_alg».proof.Proof.LibDense

noncomputable section

open scoped BigOperators

namespace Cert.Spmm

open Idealize.ShloMosaic Idealize.ShloMosaic.ValueIdx

/-- The dense projection: entry (r, c) is the sum over k of X(r, k) · W(k, c). -/
def support (X : FVec Ideal ⟨2, ![65536, 128]⟩ .f32) (W : FVec Ideal ⟨2, ![128, 64]⟩ .f32) :
    FVec Ideal ⟨2, ![65536, 64]⟩ .f32 :=
  fun i => ∑ k : Fin 128, X (ix2 (⟨(i 0).val, idx2_lt0 i⟩ : Fin 65536) k) * W (ix2 k (⟨(i 1).val, idx2_lt1 i⟩ : Fin 64))

theorem support_apply (X : FVec Ideal ⟨2, ![65536, 128]⟩ .f32) (W : FVec Ideal ⟨2, ![128, 64]⟩ .f32)
    (r : Fin 65536) (c : Fin 64) : support X W (ix2 r c) = ∑ k : Fin 128, X (ix2 r k) * W (ix2 k c) := rfl

/-- The gate and the bias: entry (r, c) is P(r, c) · O(r, c) + b(c). -/
def gate (P O : FVec Ideal ⟨2, ![65536, 64]⟩ .f32) (b : FVec Ideal ⟨1, ![64]⟩ .f32) : FVec Ideal ⟨2, ![65536, 64]⟩ .f32 :=
  fun i => P i * O i + b (ix1 (⟨(i 1).val, idx2_lt1 i⟩ : Fin 64))

theorem gate_apply (P O : FVec Ideal ⟨2, ![65536, 64]⟩ .f32) (b : FVec Ideal ⟨1, ![64]⟩ .f32) (r : Fin 65536) (c : Fin 64) :
    gate P O b (ix2 r c) = P (ix2 r c) * O (ix2 r c) + b (ix1 c) := rfl

/-- The host's general product of the features with the weight is the projection. -/
theorem dotGeneral_eq_support (d : DotDims ⟨2, ![65536, 128]⟩ ⟨2, ![128, 64]⟩ ⟨2, ![65536, 64]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![65536, 128]⟩ .f32) (W : FVec Ideal ⟨2, ![128, 64]⟩ .f32) :
    Host.dotGeneral d none X W = support X W := by
  funext i
  obtain ⟨r, c, rfl⟩ : ∃ (r : Fin 65536) (c : Fin 64), i = ix2 r c := ⟨i 0, i 1, eq_ix2 i⟩
  exact Cert.Dense.dotGeneral_plain_apply d h1 h2 h3 h4 h5 h6 none X W r c

/-- A [1, C] array stretched over R rows after a cast to its own shape reads, at (r, c), its entry (0, c). -/
theorem bias_row_apply {R C : ℕ} {α : Type} (v : (⟨2, ![1, C]⟩ : Shape).Idx → α)
    (hs : (⟨2, ![1, C]⟩ : Shape).ShapeCasts ⟨2, ![1, C]⟩) (hb : (⟨2, ![1, C]⟩ : Shape).Broadcasts ⟨2, ![R, C]⟩)
    (r : Fin R) (c : Fin C) :
    broadcastTo ⟨2, ![R, C]⟩ (shapeCast ⟨2, ![1, C]⟩ v hs) hb (ix2 r c) = v (ix2 (0 : Fin 1) c) := by
  rw [shapeCast_self]
  exact broadcastTo_1b_ab_apply v hb r c

/-- A [C] row reshaped to a [1, C] array reads, at (0, c), the row's entry c. -/
theorem bias_cast_apply {C : ℕ} {α : Type} (b : (⟨1, ![C]⟩ : Shape).Idx → α)
    (hs : (⟨1, ![C]⟩ : Shape).ShapeCasts ⟨2, ![1, C]⟩) (c : Fin C) :
    shapeCast ⟨2, ![1, C]⟩ b hs (ix2 (0 : Fin 1) c) = b (ix1 c) :=
  shapeCast_a_1a_apply b hs 0 c

/-- A [C] row laid out on axis 1 of a [1, C] array and then over R rows reads, at (r, c), the row's entry c. -/
theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- a column that is the only one (C = 1) is column 0
  have hc : c.val = if C = 1 then 0 else c.val := by
    split
    · have := c.isLt; omega
    · rfl
  refine (broadcastInDim_apply ![0, 1] hb2 _ (ix2 r c) (ix2 (0 : Fin 1) c) fun a => ?_).trans ?_
  · match a with
    | ⟨0, _⟩ => exact (if_pos rfl).symm
    | ⟨1, _⟩ => exact hc
  · refine broadcastInDim_apply ![1] hb1 b (ix2 (0 : Fin 1) c) (ix1 c) fun a => ?_
    match a with
    | ⟨0, _⟩ => exact hc

end Cert.Spmm

end
-- ==== Proof.KernelValue.lean ====
/-
  What the idealized kernel program computes, array by array, at the extended reals.

  The program is two pipelined regions around a stretch of host operations. Region 0 runs over 8 blocks of 8192 rows:
  at point t it multiplies rows 8192·t … 8192·t + 8191 of the features with the whole weight (both narrowed to bf16,
  which is the identity here, the product taken into a zero accumulator) and writes the product back as the same rows of
  the projection; so the projection array ends as `support` of the features and the weight (`support_final`). The host
  stretch then propagates the projection along the edges (`propagate`, kept closed) and reshapes the bias to a [1, 64] row.
  Region 1 runs over the same 8 blocks of rows: at point t it multiplies the gate's rows with the propagated rows, entry
  by entry, and adds the bias row to every row; so the result array ends as `gate` of the gate array, the propagated
  array and the bias (`gate_final`).
-/
import proofs.«144389_j16578573762726_1_alg».proof.Proof.Gen.KernelIdeal.Frame
import proofs.«144389_j16578573762726_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen Cert.Spmm
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The bodies' stored values at an entry -/

/-- Region 0's stored block at (p, q): the sum over k of the feature block's (p, k) times the weight's (k, q). -/
theorem product_apply (x0 : FVec Ideal S8192x128 .f32) (x1 : FVec Ideal S128x64 .f32) (p : Fin 8192) (q : Fin 64) :
    k0_pay1 (F := Ideal) x0 x1 (ix2 p q) = ∑ k : Fin 128, x0 (ix2 p k) * x1 (ix2 k q) := by
  unfold k0_pay1
  exact Cert.Dense.matmul_zero_plain_apply dot_S8192x128_S128x64_S8192x64_1_0_0_1_n_n rfl rfl rfl rfl rfl rfl none
    (truncf .bf16 x0 bitsLt_bf16_f32) (truncf .bf16 x1 bitsLt_bf16_f32) p q

/-- Region 1's stored block at (p, q): the gate block's entry times the propagated block's entry plus the bias row's
    entry q. -/
theorem gated_apply (x0 x1 : FVec Ideal S8192x64 .f32) (x2 : FVec Ideal S1x64 .f32) (p : Fin 8192) (q : Fin 64) :
    k1_pay1 (F := Ideal) x0 x1 x2 (ix2 p q) = x0 (ix2 p q) * x1 (ix2 p q) + x2 (ix2 (0 : Fin 1) q) := by
  unfold k1_pay1
  rw [addf_apply, mulf_apply, shapeCast_self, bias_row_apply]

/-! ## The regions, at any contents `V` of the buffers when a region is entered -/

section Regions

variable (V : (c : Dev nD) → (b : Ref sig .tc) → Buf (Elt Ideal) ((c : Thread nD τ).loc b))

/-! ### Region 0: the projection, 8192 rows at a time -/

/-- Point t reads block row t of the features and the whole weight, and writes block row t of the projection. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of point t at (p, k) is the features at (8192·t + p, k). -/
theorem xblk_apply (c : Dev nD) (t : Fin cfg0.N) (y : S8192x128.Idx) (i : S65536x128.Idx)
    (h0 : (i 0).val = t.val * 8192 + (y 0).val) (h1 : (i 1).val = (y 1).val) :
    (iblk0 V c 0 t : FVec Ideal S8192x128 .f32) y = (V c main_arg0 : FVec Ideal S65536x128 .f32) i := by
  obtain ⟨e0, e1, -⟩ := idx0 t
  unfold iblk0
  rw [View.read_apply]
  show (V c main_arg0 : FVec Ideal S65536x128 .f32) _ = _
  refine congrArg _ (funext fun a => Fin.ext ?_)
  match a with
  | ⟨0, _⟩ => show win0_0.index t (0 : Fin 2) * 8192 + 1 * (y 0).val = (i 0).val; omega
  | ⟨1, _⟩ => show win0_0.index t (1 : Fin 2) * 128 + 1 * (y 1).val = (i 1).val; omega

/-- The weight block of every point is the weight. -/
theorem wblk_apply (c : Dev nD) (t : Fin cfg0.N) (y : S128x64.Idx) (i : S128x64.Idx)
    (h0 : (i 0).val = (y 0).val) (h1 : (i 1).val = (y 1).val) :
    (iblk0 V c 1 t : FVec Ideal S128x64 .f32) y = (V c main_arg5 : FVec Ideal S128x64 .f32) i := by
  obtain ⟨-, -, e2, e3, -⟩ := idx0 t
  unfold iblk0
  rw [View.read_apply]
  show (V c main_arg5 : FVec Ideal S128x64 .f32) _ = _
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 64 + 1 * (y 1).val = (i 1).val; omega

/-- What point t stores, at (p, q), is the projection at (8192·t + p, q). -/
theorem block_product (c : Dev nD) (t : Fin cfg0.N) (j : S8192x64.Idx) (i : S65536x64.Idx)
    (h0 : (i 0).val = t.val * 8192 + (j 0).val) (h1 : (i 1).val = (j 1).val) :
    k0_pay1 (F := Ideal) (iblk0 V c 0 t) (iblk0 V c 1 t) j
      = support (V c main_arg0) (V c main_arg5) i := by
  obtain ⟨p, q, rfl⟩ : ∃ (p : Fin 8192) (q : Fin 64), j = ix2 p q := ⟨j 0, j 1, eq_ix2 j⟩
  obtain ⟨r, s, rfl⟩ : ∃ (r : Fin 65536) (s : Fin 64), i = ix2 r s := ⟨i 0, i 1, eq_ix2 i⟩
  refine (product_apply (iblk0 V c 0 t) (iblk0 V c 1 t) p q).trans ?_
  refine (Finset.sum_congr rfl fun k _ => ?_).trans (support_apply (V c main_arg0) (V c main_arg5) r s).symm
  rw [xblk_apply V c t (ix2 p k) (ix2 r k) h0 rfl, wblk_apply V c t (ix2 k q) (ix2 k s) rfl h1]

/-- What point t writes back is block row t of the projection of the features and the weight as the region finds them. -/
theorem flushed0 (c : Dev nD) (t : Fin cfg0.N) :
    (dat0 V c).flushed 2 t
      = ((cfg0.win 2).blk t).view.read (Elt Ideal) (support (V c main_arg0) (V c main_arg5)) := by
  show (cfg0.win 2).cut (grid0.coords t) ((dat0 V c).after 2 t) = _
  rw [after0_2]
  unfold out0_2
  rw [View.canon_unit_zero hz]
  simp only [View.ld_unit_zero (S := S8192x128) hz, View.ld_unit_zero (S := S128x64) hz]
  obtain ⟨-, -, -, -, e4, e5⟩ := idx0 t
  funext j
  show k0_pay1 (F := Ideal) (iblk0 V c 0 t) (iblk0 V c 1 t) j
    = support (V c main_arg0) (V c main_arg5) (((cfg0.win 2).blk t).view.emb j)
  refine block_product V c t j _ ?_ ?_
  · show win0_2.index t (0 : Fin 2) * 8192 + 1 * (j 0).val = t.val * 8192 + (j 0).val; omega
  · show win0_2.index t (1 : Fin 2) * 64 + 1 * (j 1).val = (j 1).val; omega

/-- An entry of the projection array lies in point t's block iff each coordinate lies in the block's range. -/
theorem mem_blk0 (t : Fin cfg0.N) (i : S65536x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v0).slice (win0_2.rect t)).set ↔ _
  rw [View.set_slice_whole, Rect.mem_set_unit]
  exact Iff.rfl

/-- Every row of the projection array is in the block of the point numbered by the row's quotient by 8192. -/
theorem cover0 (i : S65536x64.Idx) :
    ∃ t : Fin cfg0.N, (cfg0.win 2).flush t = true ∧ i ∈ ((cfg0.win 2).blk t).view.set := by
  have hi0 : (i 0).val < 65536 := (i 0).isLt
  have hi1 : (i 1).val < 64 := (i 1).isLt
  have hN : cfg0.N = 8 := N_0
  have ht : (i 0).val / 8192 < cfg0.N := by rw [hN]; omega
  obtain ⟨-, -, -, -, e4, e5⟩ := idx0 ⟨(i 0).val / 8192, ht⟩
  refine ⟨⟨(i 0).val / 8192, ht⟩, flush0_2 _, ?_⟩
  rw [mem_blk0]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [e4]; show (i 0).val / 8192 * 8192 ≤ (i 0).val ∧ (i 0).val < (i 0).val / 8192 * 8192 + 8192; omega
  | ⟨1, _⟩ =>
    show win0_2.index ⟨(i 0).val / 8192, ht⟩ (1 : Fin 2) * 64 ≤ (i 1).val
      ∧ (i 1).val < win0_2.index ⟨(i 0).val / 8192, ht⟩ (1 : Fin 2) * 64 + 64
    rw [e5]; omega

/-- After region 0 the projection array holds `support` of the features and the weight as the region found them. -/
theorem support_final (c : Dev nD) :
    (dat0 V c).arrAt 2 cfg0.N = support (V c main_arg0) (V c main_arg5) :=
  (dat0 V c).arrAt_eq_of_cover 2 (support (V c main_arg0) (V c main_arg5)) (fun t _ => flushed0 V c t) cover0

/-! ### Region 1: the gate and the bias, 8192 rows at a time -/

/-- The gate with the bias held as a [1, 64] row: entry (r, c) is P(r, c) · O(r, c) + B(0, c). -/
def gateRow (P O : FVec Ideal S65536x64 .f32) (B : FVec Ideal S1x64 .f32) : FVec Ideal S65536x64 .f32 :=
  fun i => P i * O i + B (ix2 (0 : Fin 1) (⟨(i 1).val, idx2_lt1 i⟩ : Fin 64))

/-- With the bias row a reshaped [64] vector it is `gate`. -/
theorem gateRow_cast (P O : FVec Ideal S65536x64 .f32) (b : FVec Ideal S64 .f32) :
    gateRow P O (shapeCast S1x64 b shapeCasts_S64_S1x64) = gate P O b := by
  funext i
  show P i * O i + _ = P i * O i + _
  rw [bias_cast_apply]

/-- Point t reads block row t of the gate array and of the propagated array and the whole bias row, and writes block
    row t of the result. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The gate block of point t at (p, q) is the gate array at (8192·t + p, q). -/
theorem pblk_apply (c : Dev nD) (t : Fin cfg1.N) (y : S8192x64.Idx) (i : S65536x64.Idx)
    (h0 : (i 0).val = t.val * 8192 + (y 0).val) (h1 : (i 1).val = (y 1).val) :
    (iblk1 V c 0 t : FVec Ideal S8192x64 .f32) y = (V c main_arg4 : FVec Ideal S65536x64 .f32) i := by
  obtain ⟨e0, e1, -⟩ := idx1 t
  unfold iblk1
  rw [View.read_apply]
  show (V c main_arg4 : FVec Ideal S65536x64 .f32) _ = _
  refine congrArg _ (funext fun a => Fin.ext ?_)
  match a with
  | ⟨0, _⟩ => show win1_0.index t (0 : Fin 2) * 8192 + 1 * (y 0).val = (i 0).val; omega
  | ⟨1, _⟩ => show win1_0.index t (1 : Fin 2) * 64 + 1 * (y 1).val = (i 1).val; omega

/-- The propagated block of point t at (p, q) is the propagated array at (8192·t + p, q). -/
theorem oblk_apply (c : Dev nD) (t : Fin cfg1.N) (y : S8192x64.Idx) (i : S65536x64.Idx)
    (h0 : (i 0).val = t.val * 8192 + (y 0).val) (h1 : (i 1).val = (y 1).val) :
    (iblk1 V c 1 t : FVec Ideal S8192x64 .f32) y = (V c main_v13 : FVec Ideal S65536x64 .f32) i := by
  obtain ⟨-, -, e2, e3, -⟩ := idx1 t
  unfold iblk1
  rw [View.read_apply]
  show (V c main_v13 : FVec Ideal S65536x64 .f32) _ = _
  refine congrArg _ (funext fun a => Fin.ext ?_)
  match a with
  | ⟨0, _⟩ => show win1_1.index t (0 : Fin 2) * 8192 + 1 * (y 0).val = (i 0).val; omega
  | ⟨1, _⟩ => show win1_1.index t (1 : Fin 2) * 64 + 1 * (y 1).val = (i 1).val; omega

/-- The bias block of every point is the bias row. -/
theorem bblk_apply (c : Dev nD) (t : Fin cfg1.N) (y : S1x64.Idx) (i : S1x64.Idx)
    (h0 : (i 0).val = (y 0).val) (h1 : (i 1).val = (y 1).val) :
    (iblk1 V c 2 t : FVec Ideal S1x64 .f32) y = (V c main_v14 : FVec Ideal S1x64 .f32) i := by
  obtain ⟨-, -, -, -, e4, e5, -⟩ := idx1 t
  unfold iblk1
  rw [View.read_apply]
  show (V c main_v14 : FVec Ideal S1x64 .f32) _ = _
  refine congrArg _ (funext fun a => Fin.ext ?_)
  match a with
  | ⟨0, _⟩ => show win1_2.index t (0 : Fin 2) * 1 + 1 * (y 0).val = (i 0).val; omega
  | ⟨1, _⟩ => show win1_2.index t (1 : Fin 2) * 64 + 1 * (y 1).val = (i 1).val; omega

/-- What point t stores, at (p, q), is the gated entry (8192·t + p, q). -/
theorem block_gated (c : Dev nD) (t : Fin cfg1.N) (j : S8192x64.Idx) (i : S65536x64.Idx)
    (h0 : (i 0).val = t.val * 8192 + (j 0).val) (h1 : (i 1).val = (j 1).val) :
    k1_pay1 (F := Ideal) (iblk1 V c 0 t) (iblk1 V c 1 t) (iblk1 V c 2 t) j
      = gateRow (V c main_arg4) (V c main_v13) (V c main_v14) i := by
  obtain ⟨p, q, rfl⟩ : ∃ (p : Fin 8192) (q : Fin 64), j = ix2 p q := ⟨j 0, j 1, eq_ix2 j⟩
  obtain ⟨r, s, rfl⟩ : ∃ (r : Fin 65536) (s : Fin 64), i = ix2 r s := ⟨i 0, i 1, eq_ix2 i⟩
  refine (gated_apply (iblk1 V c 0 t) (iblk1 V c 1 t) (iblk1 V c 2 t) p q).trans ?_
  rw [pblk_apply V c t (ix2 p q) (ix2 r s) h0 h1, oblk_apply V c t (ix2 p q) (ix2 r s) h0 h1,
    bblk_apply V c t (ix2 (0 : Fin 1) q) (ix2 (0 : Fin 1) s) rfl h1]
  rfl

/-- What point t writes back is block row t of the gated array of the three arrays as the region finds them. -/
theorem flushed1 (c : Dev nD) (t : Fin cfg1.N) :
    (dat1 V c).flushed 3 t
      = ((cfg1.win 3).blk t).view.read (Elt Ideal) (gateRow (V c main_arg4) (V c main_v13) (V c main_v14)) := by
  show (cfg1.win 3).cut (grid1.coords t) ((dat1 V c).after 3 t) = _
  rw [after1_3]
  unfold out1_3
  rw [View.canon_unit_zero hz]
  simp only [View.ld_unit_zero (S := S8192x64) hz, View.ld_unit_zero (S := S1x64) hz]
  obtain ⟨-, -, -, -, -, -, e6, e7⟩ := idx1 t
  funext j
  show k1_pay1 (F := Ideal) (iblk1 V c 0 t) (iblk1 V c 1 t) (iblk1 V c 2 t) j
    = gateRow (V c main_arg4) (V c main_v13) (V c main_v14) (((cfg1.win 3).blk t).view.emb j)
  refine block_gated V c t j _ ?_ ?_
  · show win1_3.index t (0 : Fin 2) * 8192 + 1 * (j 0).val = t.val * 8192 + (j 0).val; omega
  · show win1_3.index t (1 : Fin 2) * 64 + 1 * (j 1).val = (j 1).val; omega

/-- An entry of the result array lies in point t's block iff each coordinate lies in the block's range. -/
theorem mem_blk1 (t : Fin cfg1.N) (i : S65536x64.Idx) :
    i ∈ ((cfg1.win 3).blk t).view.set ↔ ∀ a : Fin 2, win1_3.index t a * S8192x64.size a ≤ (i a).val
      ∧ (i a).val < win1_3.index t a * S8192x64.size a + S8192x64.size a := by
  show i ∈ ((View.whole main_v15).slice (win1_3.rect t)).set ↔ _
  rw [View.set_slice_whole, Rect.mem_set_unit]
  exact Iff.rfl

/-- Every row of the result array is in the block of the point numbered by the row's quotient by 8192. -/
theorem cover1 (i : S65536x64.Idx) :
    ∃ t : Fin cfg1.N, (cfg1.win 3).flush t = true ∧ i ∈ ((cfg1.win 3).blk t).view.set := by
  have hi0 : (i 0).val < 65536 := (i 0).isLt
  have hi1 : (i 1).val < 64 := (i 1).isLt
  have hN : cfg1.N = 8 := N_1
  have ht : (i 0).val / 8192 < cfg1.N := by rw [hN]; omega
  obtain ⟨-, -, -, -, -, -, e6, e7⟩ := idx1 ⟨(i 0).val / 8192, ht⟩
  refine ⟨⟨(i 0).val / 8192, ht⟩, flush1_3 _, ?_⟩
  rw [mem_blk1]
  intro a
  match a with
  | ⟨0, _⟩ =>
    show win1_3.index ⟨(i 0).val / 8192, ht⟩ (0 : Fin 2) * 8192 ≤ (i 0).val
      ∧ (i 0).val < win1_3.index ⟨(i 0).val / 8192, ht⟩ (0 : Fin 2) * 8192 + 8192
    rw [e6]; show (i 0).val / 8192 * 8192 ≤ (i 0).val ∧ (i 0).val < (i 0).val / 8192 * 8192 + 8192; omega
  | ⟨1, _⟩ =>
    show win1_3.index ⟨(i 0).val / 8192, ht⟩ (1 : Fin 2) * 64 ≤ (i 1).val
      ∧ (i 1).val < win1_3.index ⟨(i 0).val / 8192, ht⟩ (1 : Fin 2) * 64 + 64
    rw [e7]; omega

/-- After region 1 the result array holds the gated array of the gate array, the propagated array and the bias row as
    the region found them. -/
theorem gate_final (c : Dev nD) :
    (dat1 V c).arrAt 3 cfg1.N = gateRow (V c main_arg4) (V c main_v13) (V c main_v14) :=
  (dat1 V c).arrAt_eq_of_cover 3 (gateRow (V c main_arg4) (V c main_v13) (V c main_v14)) (fun t _ => flushed1 V c t) cover1

end Regions

end Cert.KernelIdeal.Hand

end
-- ==== Proof.KernelResult.lean ====
/-
  The idealized kernel program's result as one function of its seven arguments.

  Between the two regions the host propagates the projection along the edges: it wraps negative column numbers by 65536,
  gathers the projection's rows at the column numbers, scales each gathered row by its edge's value, and adds the
  scaled rows into a zero array at the row numbers (`propagate`; its inside is never opened, both programs apply the
  same operations). Reading the buffers' contents boundary by boundary: region 0 leaves the projection of the
  features and the weight (`support`), the host stretch leaves `propagate` of it and the bias as a [1, 64] row, the
  arguments untouched, and region 1 leaves `gate` of the gate array, the propagated array and the bias (`result_eq`).
-/
import proofs.«144389_j16578573762726_1_alg».proof.Proof.Gen.KernelIdeal.Frame
import proofs.«144389_j16578573762726_1_alg».proof.Proof.KernelValue
import proofs.«144389_j16578573762726_1_alg».proof.Proof.KernelIdealRun
import Idealize.ShloMosaic.Lib.StableHlo.Run

set_option maxRecDepth 16384

noncomputable section

namespace Cert.KernelIdeal.Hand

open Cert.KernelIdeal Cert.KernelIdeal.Gen Cert.Spmm
open Idealize.ShloMosaic Idealize.ShloMosaic.TcCoe Idealize.SL.Sem Idealize.ShloMosaic.ValueIdx Idealize.ShloMosaic.StableHlo

/-- The sparse propagation of a [65536, 64] array along the edges, as the host spells it: negative column numbers
    wrapped, rows gathered at the column numbers, scaled by the edge values, added into zeros at the row numbers. -/
def propagate (S : (⟨S65536x64, .f32⟩ : BufTy).Contents (Elt Ideal)) (row col : (⟨S1048576, .i32⟩ : BufTy).Contents (Elt Ideal))
    (vals : (⟨S1048576, .f32⟩ : BufTy).Contents (Elt Ideal)) : (⟨S65536x64, .f32⟩ : BufTy).Contents (Elt Ideal) :=
  Host.scatterAdd scatter_S65536x64_S1048576x1_S1048576x64_1_0_0_1
    (broadcastInDim S65536x64 ![] bcast_S_S65536x64 (constant (F := Ideal) S_ .f32 0x00000000#32))
    (broadcastInDim S1048576x1 ![0] bcast_S1048576_S1048576x1_0 row)
    (mulf
      (broadcastInDim S1048576x64 ![0, 1] bcast_S1048576x1_S1048576x64_0_1
        (broadcastInDim S1048576x1 ![0] bcast_S1048576_S1048576x1_0 vals))
      (Host.gather gather_S65536x64_S1048576x1_S1048576x64_1_0_n_n_0_1_164 S
        (broadcastInDim S1048576x1 ![0] bcast_S1048576_S1048576x1_0
          (select (cmpi .slt col (broadcastInDim S1048576 ![] bcast_S_S1048576 (constantI S_ 32 0#32)))
            (addi col (broadcastInDim S1048576 ![] bcast_S_S1048576 (constantI S_ 32 65536#32))) col))))

variable (m : (ℓ : Loc nD τ sig) → Buf (Elt Ideal) ℓ) (ρ : Dev nD → PrngReg)

/-- The kernel program's result array as a function of the launch contents of its arguments. -/
abbrev result (c : Dev nD) : Buf (Elt Ideal) ((c.tc : Thread nD τ).loc main_v15) :=
  gate (m ((c.tc : Thread nD τ).loc main_arg4))
    (propagate (support (m ((c.tc : Thread nD τ).loc main_arg0)) (m ((c.tc : Thread nD τ).loc main_arg5)))
      (m ((c.tc : Thread nD τ).loc main_arg1)) (m ((c.tc : Thread nD τ).loc main_arg2)) (m ((c.tc : Thread nD τ).loc main_arg3)))
    (m ((c.tc : Thread nD τ).loc main_arg6))

/-- At region 0's exit the projection array holds the projection of the launch features and weight. -/
theorem W1_support (c : Dev nD) :
    W1 m ρ c (Proc.devRef .tc main_v0)
      = support (m ((c.tc : Thread nD τ).loc main_arg0)) (m ((c.tc : Thread nD τ).loc main_arg5)) :=
  (W1_arr m ρ c 2).trans (support_final (V0 m ρ) c)

/-- At region 1's entry the propagated array is the propagation of that projection along the launch edges. -/
theorem V2_propagated (c : Dev nD) :
    V2 m ρ c main_v13
      = propagate (support (m ((c.tc : Thread nD τ).loc main_arg0)) (m ((c.tc : Thread nD τ).loc main_arg5)))
          (m ((c.tc : Thread nD τ).loc main_arg1)) (m ((c.tc : Thread nD τ).loc main_arg2)) (m ((c.tc : Thread nD τ).loc main_arg3)) := by
  show StableHlo.after hostOps1 (W1 m ρ c) (Proc.devRef .tc main_v13) = _
  after_results
  rw [W1_support m ρ c, W1_of_ne m ρ c main_arg1 (by decide), W1_of_ne m ρ c main_arg2 (by decide),
    W1_of_ne m ρ c main_arg3 (by decide)]
  rfl

/-- At region 1's entry the bias row is the launch bias reshaped to [1, 64]. -/
theorem V2_bias (c : Dev nD) :
    V2 m ρ c main_v14 = shapeCast S1x64 (m ((c.tc : Thread nD τ).loc main_arg6)) shapeCasts_S64_S1x64 := by
  show StableHlo.after hostOps1 (W1 m ρ c) (Proc.devRef .tc main_v14) = _
  after_results
  rw [W1_of_ne m ρ c main_arg6 (by decide)]
  rfl

/-- At region 1's entry the gate array is as launched. -/
theorem V2_gate (c : Dev nD) : V2 m ρ c main_arg4 = m ((c.tc : Thread nD τ).loc main_arg4) := by
  show StableHlo.after hostOps1 (W1 m ρ c) (Proc.devRef .tc main_arg4) = _
  after_results
  exact W1_of_ne m ρ c main_arg4 (by decide)

/-- At the last boundary the result array holds `result`. -/
theorem result_eq (c : Dev nD) : W3 m ρ c (Proc.devRef .tc main_v15) = result m c := by
  refine (W3_arr m ρ c 3).trans ?_
  rw [gate_final (V2 m ρ) c, V2_gate m ρ c, V2_propagated m ρ c, V2_bias m ρ c, gateRow_cast]

/-- Every weakly fair execution of the idealized kernel program terminates with the result array at `result` of the
    launch arguments and the arguments unchanged. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.GenRun.run (F := Ideal) m ρ)

end Cert.KernelIdeal.Hand

end
-- ==== Proof.Bridge.lean ====
/-
  The reference's result is the kernel program's result function.

  The reference computes the projection by one general product of the whole feature array with the weight, propagates it
  along the edges by the same host operations as the kernel program, multiplies by the gate array entry by entry and adds
  the bias laid out over the rows. The general product is `support` (the sum over k at every entry), the bias laid out
  over the rows reads the bias entry of the column, and what is left on both sides is the same propagation of the same
  projection, the same gate entry and the same bias entry.
-/
import proofs.«144389_j16578573762726_1_alg».proof.Proof.Gen.ReferenceIdeal.Run
import proofs.«144389_j16578573762726_1_alg».proof.Proof.KernelResult
import proofs.«144389_j16578573762726_1_alg».proof.Proof.Spec

noncomputable section

namespace Cert.Bridge

open Cert.ReferenceIdeal Cert.ReferenceIdeal.Gen Cert.Spmm
open Idealize.ShloMosaic Idealize.ShloMosaic.ValueIdx

/-- The reference's composed term of its arguments is `gate` of the gate array, the propagation of the projection, and
    the bias. -/
theorem reference_result (a0 : FVec Ideal S65536x128 .f32) (a1 a2 : (⟨S1048576, .i32⟩ : BufTy).Contents (Elt Ideal))
    (a3 : FVec Ideal S1048576 .f32) (a4 : FVec Ideal S65536x64 .f32) (a5 : FVec Ideal S128x64 .f32) (a6 : FVec Ideal S64 .f32) :
    addf (mulf a4 (Host.scatterAdd scatter_S65536x64_S1048576x1_S1048576x64_1_0_0_1 (broadcastInDim S65536x64 ![] bcast_S_S65536x64 (constant (F := Ideal) S_ .f32 0x00000000#32)) (broadcastInDim S1048576x1 ![0] bcast_S1048576_S1048576x1_0 a1) (mulf (broadcastInDim S1048576x64 ![0, 1] bcast_S1048576x1_S1048576x64_0_1 (broadcastInDim S1048576x1 ![0] bcast_S1048576_S1048576x1_0 a3)) (Host.gather gather_S65536x64_S1048576x1_S1048576x64_1_0_n_n_0_1_164 (Host.dotGeneral dot_S65536x128_S128x64_S65536x64_1_0_0_1_n_n none a0 a5) (broadcastInDim S1048576x1 ![0] bcast_S1048576_S1048576x1_0 (select (cmpi .slt a2 (broadcastInDim S1048576 ![] bcast_S_S1048576 (constantI S_ 32 0#32))) (addi a2 (broadcastInDim S1048576 ![] bcast_S_S1048576 (constantI S_ 32 65536#32))) a2))))))
        (broadcastInDim S65536x64 ![0, 1] bcast_S1x64_S65536x64_0_1 (broadcastInDim S1x64 ![1] bcast_S64_S1x64_1 a6))
      = gate a4 (Cert.KernelIdeal.Hand.propagate (support a0 a5) a1 a2 a3) a6 := by
  rw [dotGeneral_eq_support dot_S65536x128_S128x64_S65536x64_1_0_0_1_n_n rfl rfl rfl rfl rfl rfl a0 a5]
  funext i
  obtain ⟨r, s, rfl⟩ : ∃ (r : Fin 65536) (s : Fin 64), i = ix2 r s := ⟨i 0, i 1, eq_ix2 i⟩
  rw [addf_apply, mulf_apply, bias_inDim_apply, gate_apply]
  rfl

end Cert.Bridge

end
-- ==== Proof.lean ====
/-
  The certificate of a gated graph layer: a Pallas program of two pipelined regions around a host stretch against a
  plain reference, equal over the extended reals.

  Both programs compute, at entry (r, c),  P(r, c) · O(r, c) + b(c),  where O is the propagation along the edges of the
  projection  support(r, c) = Σ_k X(r, k) · W(k, c).  The kernel program takes the projection 8192 rows at a time on
  the matrix unit from operands narrowed to bf16 (the identity over the extended reals) into a zero accumulator; the
  reference takes it as one general product. Both are the same sum over k at every entry. The propagation is the same
  host computation on both sides and stays closed. The gate and the bias are taken entry by entry on both sides. No law
  of the extended reals beyond the definitions is needed, so finiteness of the inputs is never used.

  The three frames are the generated ones (the reference's is its generated run with the result dropped); the
  idealization rewrote nothing, so `preserves` is `True`.
-/
import proofs.«144389_j16578573762726_1_alg».proof.Defs
import proofs.«144389_j16578573762726_1_alg».proof.Proof.Gen.Kernel
import proofs.«144389_j16578573762726_1_alg».proof.Proof.Gen.Kernel.Frame
import proofs.«144389_j16578573762726_1_alg».proof.Proof.Gen.KernelIdeal
import proofs.«144389_j16578573762726_1_alg».proof.Proof.Gen.KernelIdeal.Frame
import proofs.«144389_j16578573762726_1_alg».proof.Proof.Gen.ReferenceIdeal
import proofs.«144389_j16578573762726_1_alg».proof.Proof.Gen.ReferenceIdeal.Run
import proofs.«144389_j16578573762726_1_alg».proof.Proof.Gen.Pre_finite_inputs
import proofs.«144389_j16578573762726_1_alg».proof.Proof.KernelResult
import proofs.«144389_j16578573762726_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with the same result array: the
    kernel program's is `result` of its arguments, and the reference's composed term of the same arguments is that
    function too. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact Cert.Bridge.reference_result _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
